-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S2000x128 : Shape := ⟨2, ![2000, 128]⟩
abbrev S675000x128 : Shape := ⟨2, ![675000, 128]⟩
abbrev S1x128 : Shape := ⟨2, ![1, 128]⟩
abbrev S50000x40 : Shape := ⟨2, ![50000, 40]⟩
abbrev S2000x40 : Shape := ⟨2, ![2000, 40]⟩
abbrev S675000x40 : Shape := ⟨2, ![675000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 77
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x625000, .i32⟩
  | .hbm, ⟨8, _⟩ => ⟨S625000, .i32⟩
  | .hbm, ⟨9, _⟩ => ⟨S675000, .i32⟩
  | .hbm, ⟨10, _⟩ => ⟨S1x625000, .i32⟩
  | .hbm, ⟨11, _⟩ => ⟨S625000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S675000, .i32⟩
  | .hbm, ⟨22, _⟩ => ⟨S675000, .i1⟩
  | .hbm, ⟨23, _⟩ => ⟨S_, .i32⟩
  | .hbm, ⟨24, _⟩ => ⟨S675000, .i32⟩
  | .hbm, ⟨25, _⟩ => ⟨S675000, .i32⟩
  | .hbm, ⟨26, _⟩ => ⟨S675000, .i32⟩
  | .hbm, ⟨27, _⟩ => ⟨S675000x1, .i32⟩
  | .hbm, ⟨28, _⟩ => ⟨S675000, .f32⟩
  | .hbm, ⟨29, _⟩ => ⟨S_, .i32⟩
  | .hbm, ⟨30, _⟩ => ⟨S675000, .i32⟩
  | .hbm, ⟨31, _⟩ => ⟨S675000, .i1⟩
  | .hbm, ⟨32, _⟩ => ⟨S_, .i32⟩
  | .hbm, ⟨33, _⟩ => ⟨S675000, .i32⟩
  | .hbm, ⟨34, _⟩ => ⟨S675000, .i32⟩
  | .hbm, ⟨35, _⟩ => ⟨S675000, .i32⟩
  | .hbm, ⟨36, _⟩ => ⟨S675000x1, .i32⟩
  | .hbm, ⟨37, _⟩ => ⟨S675000, .f32⟩
  | .hbm, ⟨38, _⟩ => ⟨S675000, .f32⟩
  | .hbm, ⟨39, _⟩ => ⟨S50000x128, .f32⟩
  | .hbm, ⟨40, _⟩ => ⟨S_, .i32⟩
  | .hbm, ⟨41, _⟩ => ⟨S675000, .i32⟩
  | .hbm, ⟨42, _⟩ => ⟨S675000, .i1⟩
  | .hbm, ⟨43, _⟩ => ⟨S_, .i32⟩
  | .hbm, ⟨44, _⟩ => ⟨S675000, .i32⟩
  | .hbm, ⟨45, _⟩ => ⟨S675000, .i32⟩
  | .hbm, ⟨46, _⟩ => ⟨S675000, .i32⟩
  | .hbm, ⟨47, _⟩ => ⟨S675000x1, .i32⟩
  | .hbm, ⟨48, _⟩ => ⟨S675000x128, .f32⟩
  | .hbm, ⟨49, _⟩ => ⟨S675000x1, .f32⟩
  | .hbm, ⟨50, _⟩ => ⟨S675000x128, .f32⟩
  | .hbm, ⟨51, _⟩ => ⟨S675000x128, .f32⟩
  | .hbm, ⟨52, _⟩ => ⟨S_, .f32⟩
  | .hbm, ⟨53, _⟩ => ⟨S50000x128, .f32⟩
  | .hbm, ⟨54, _⟩ => ⟨S675000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x40, .f32⟩
  | .hbm, ⟨59, _⟩ => ⟨S_, .i32⟩
  | .hbm, ⟨60, _⟩ => ⟨S675000, .i32⟩
  | .hbm, ⟨61, _⟩ => ⟨S675000, .i1⟩
  | .hbm, ⟨62, _⟩ => ⟨S_, .i32⟩
  | .hbm, ⟨63, _⟩ => ⟨S675000, .i32⟩
  | .hbm, ⟨64, _⟩ => ⟨S675000, .i32⟩
  | .hbm, ⟨65, _⟩ => ⟨S675000, .i32⟩
  | .hbm, ⟨66, _⟩ => ⟨S675000x1, .i32⟩
  | .hbm, ⟨67, _⟩ => ⟨S675000x40, .f32⟩
  | .hbm, ⟨68, _⟩ => ⟨S675000x1, .f32⟩
  | .hbm, ⟨69, _⟩ => ⟨S675000x40, .f32⟩
  | .hbm, ⟨70, _⟩ => ⟨S675000x40, .f32⟩
  | .hbm, ⟨71, _⟩ => ⟨S_, .f32⟩
  | .hbm, ⟨72, _⟩ => ⟨S50000x40, .f32⟩
  | .hbm, ⟨73, _⟩ => ⟨S675000x1, .i32⟩
  | .hbm, ⟨74, _⟩ => ⟨S50000x40, .f32⟩
  | .hbm, ⟨75, _⟩ => ⟨S1x40, .f32⟩
  | .hbm, ⟨76, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S675000x1_S675000x40_0_1 : S675000x1.BroadcastsInDim S675000x40 (![0, 1] : Fin 2 → Fin S675000x40.rank)
  bcast_S_S50000x40 : S_.BroadcastsInDim S50000x40 (![] : Fin 0 → Fin S50000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S2000x128_S128x128_S2000x128_1_0_0_1_n_n_wf : DotDims.WF S2000x128 S128x128 S2000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S2000x128_S128x40_S2000x40_1_0_0_1_n_n_wf : DotDims.WF S2000x128 S128x40 S2000x40 [1] [0] [0] [1] [] []
  gather_S50000x40_S675000x1_S675000x40_1_0_n_n_0_1_140_wf : GatherDims.WF S50000x40 S675000x1 S675000x40 [1] [0] [] [0] [] 1 ![1, 40]
  scatter_S50000x40_S675000x1_S675000x40_1_0_0_1_wf : ScatterDims.WF S50000x40 S675000x1 S675000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S675000x1_S675000x40_1_0_n_n_0_1_140 : GatherDims S50000x40 S675000x1 S675000x40 where
  offsetDims := [1]
  collapsedSliceDims := [0]
  operandBatchingDims := []
  startIndicesBatchingDims := []
  startIndexMap := [0]
  indexVectorDim := 1
  sliceSizes := ![1, 40]
  wf := gather_S50000x40_S675000x1_S675000x40_1_0_n_n_0_1_140_wf
def scatter_S50000x40_S675000x1_S675000x40_1_0_0_1 : ScatterDims S50000x40 S675000x1 S675000x40 where
  updateWindowDims := [1]
  insertedWindowDims := [0]
  scatterDimsToOperandDims := [0]
  indexVectorDim := 1
  wf := scatter_S50000x40_S675000x1_S675000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩
abbrev S50000x40 : Shape := ⟨2, ![50000, 40]⟩
abbrev S675000x40 : Shape := ⟨2, ![675000, 40]⟩
abbrev S1x40 : Shape := ⟨2, ![1, 40]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x625000, .i32⟩
  | .hbm, ⟨8, _⟩ => ⟨S625000, .i32⟩
  | .hbm, ⟨9, _⟩ => ⟨S675000, .i32⟩
  | .hbm, ⟨10, _⟩ => ⟨S1x625000, .i32⟩
  | .hbm, ⟨11, _⟩ => ⟨S625000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S675000, .i32⟩
  | .hbm, ⟨22, _⟩ => ⟨S675000, .i1⟩
  | .hbm, ⟨23, _⟩ => ⟨S_, .i32⟩
  | .hbm, ⟨24, _⟩ => ⟨S675000, .i32⟩
  | .hbm, ⟨25, _⟩ => ⟨S675000, .i32⟩
  | .hbm, ⟨26, _⟩ => ⟨S675000, .i32⟩
  | .hbm, ⟨27, _⟩ => ⟨S675000x1, .i32⟩
  | .hbm, ⟨28, _⟩ => ⟨S675000, .f32⟩
  | .hbm, ⟨29, _⟩ => ⟨S_, .i32⟩
  | .hbm, ⟨30, _⟩ => ⟨S675000, .i32⟩
  | .hbm, ⟨31, _⟩ => ⟨S675000, .i1⟩
  | .hbm, ⟨32, _⟩ => ⟨S_, .i32⟩
  | .hbm, ⟨33, _⟩ => ⟨S675000, .i32⟩
  | .hbm, ⟨34, _⟩ => ⟨S675000, .i32⟩
  | .hbm, ⟨35, _⟩ => ⟨S675000, .i32⟩
  | .hbm, ⟨36, _⟩ => ⟨S675000x1, .i32⟩
  | .hbm, ⟨37, _⟩ => ⟨S675000, .f32⟩
  | .hbm, ⟨38, _⟩ => ⟨S675000, .f32⟩
  | .hbm, ⟨39, _⟩ => ⟨S50000x128, .f32⟩
  | .hbm, ⟨40, _⟩ => ⟨S_, .i32⟩
  | .hbm, ⟨41, _⟩ => ⟨S675000, .i32⟩
  | .hbm, ⟨42, _⟩ => ⟨S675000, .i1⟩
  | .hbm, ⟨43, _⟩ => ⟨S_, .i32⟩
  | .hbm, ⟨44, _⟩ => ⟨S675000, .i32⟩
  | .hbm, ⟨45, _⟩ => ⟨S675000, .i32⟩
  | .hbm, ⟨46, _⟩ => ⟨S675000, .i32⟩
  | .hbm, ⟨47, _⟩ => ⟨S675000x1, .i32⟩
  | .hbm, ⟨48, _⟩ => ⟨S675000x128, .f32⟩
  | .hbm, ⟨49, _⟩ => ⟨S675000x1, .f32⟩
  | .hbm, ⟨50, _⟩ => ⟨S675000x128, .f32⟩
  | .hbm, ⟨51, _⟩ => ⟨S675000x128, .f32⟩
  | .hbm, ⟨52, _⟩ => ⟨S_, .f32⟩
  | .hbm, ⟨53, _⟩ => ⟨S50000x128, .f32⟩
  | .hbm, ⟨54, _⟩ => ⟨S675000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x40, .f32⟩
  | .hbm, ⟨63, _⟩ => ⟨S_, .i32⟩
  | .hbm, ⟨64, _⟩ => ⟨S675000, .i32⟩
  | .hbm, ⟨65, _⟩ => ⟨S675000, .i1⟩
  | .hbm, ⟨66, _⟩ => ⟨S_, .i32⟩
  | .hbm, ⟨67, _⟩ => ⟨S675000, .i32⟩
  | .hbm, ⟨68, _⟩ => ⟨S675000, .i32⟩
  | .hbm, ⟨69, _⟩ => ⟨S675000, .i32⟩
  | .hbm, ⟨70, _⟩ => ⟨S675000x1, .i32⟩
  | .hbm, ⟨71, _⟩ => ⟨S675000x40, .f32⟩
  | .hbm, ⟨72, _⟩ => ⟨S675000x1, .f32⟩
  | .hbm, ⟨73, _⟩ => ⟨S675000x40, .f32⟩
  | .hbm, ⟨74, _⟩ => ⟨S675000x40, .f32⟩
  | .hbm, ⟨75, _⟩ => ⟨S_, .f32⟩
  | .hbm, ⟨76, _⟩ => ⟨S50000x40, .f32⟩
  | .hbm, ⟨77, _⟩ => ⟨S675000x1, .i32⟩
  | .hbm, ⟨78, _⟩ => ⟨S50000x40, .f32⟩
  | .hbm, ⟨79, _⟩ => ⟨S1x40, .f32⟩
  | .hbm, ⟨80, _⟩ => ⟨S50000x40, .f32⟩
  | .hbm, ⟨81, _⟩ => ⟨S50000x40, .f32⟩
  | .hbm, ⟨82, _⟩ => ⟨S_, .f32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x40, .f32⟩
  | .hbm, ⟨89, _⟩ => ⟨S50000x40, .f32⟩
  | .hbm, ⟨90, _⟩ => ⟨S50000x40, .f32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S50000x1, .f32⟩
  | .hbm, ⟨95, _⟩ => ⟨S50000x40, .f32⟩
  | .hbm, ⟨96, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S675000x1_S675000x40_0_1 : S675000x1.BroadcastsInDim S675000x40 (![0, 1] : Fin 2 → Fin S675000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x128_S50000x128_1_0_0_1_n_n_wf : DotDims.WF S50000x128 S128x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S50000x128_S128x40_S50000x40_1_0_0_1_n_n_wf : DotDims.WF S50000x128 S128x40 S50000x40 [1] [0] [0] [1] [] []
  gather_S50000x40_S675000x1_S675000x40_1_0_n_n_0_1_140_wf : GatherDims.WF S50000x40 S675000x1 S675000x40 [1] [0] [] [0] [] 1 ![1, 40]
  scatter_S50000x40_S675000x1_S675000x40_1_0_0_1_wf : ScatterDims.WF S50000x40 S675000x1 S675000x40 [1] [0] [0] 1

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S675000x1_S675000x40_1_0_n_n_0_1_140 : GatherDims S50000x40 S675000x1 S675000x40 where
  offsetDims := [1]
  collapsedSliceDims := [0]
  operandBatchingDims := []
  startIndicesBatchingDims := []
  startIndexMap := [0]
  indexVectorDim := 1
  sliceSizes := ![1, 40]
  wf := gather_S50000x40_S675000x1_S675000x40_1_0_n_n_0_1_140_wf
def scatter_S50000x40_S675000x1_S675000x40_1_0_0_1 : ScatterDims S50000x40 S675000x1 S675000x40 where
  updateWindowDims := [1]
  insertedWindowDims := [0]
  scatterDimsToOperandDims := [0]
  indexVectorDim := 1
  wf := scatter_S50000x40_S675000x1_S675000x40_1_0_0_1_wf

class Facts : Prop extends Facts₀ where

variable [Facts]
-- ==== Proof.Spec.lean ====
/-
  A two-layer graph convolution, entry by entry over the extended reals.

  Each layer is: a dense product (row r of the features times the weight matrix), a normalised
  neighbourhood sum (the same host computation on both sides of the claim, never opened here), a bias
  added along the columns, and a closing nonlinearity taken row by row: the rectifier after the first
  layer, the logarithm of the softmax after the second.

  What matters for the comparison is that every one of these is a function of ONE ROW of its
  operand: entry (r, q) of the result reads row r only. So each is stated here as a function of a
  row, a map from the column number to the entry, over literal extents (128 hidden features, 40
  classes). A tile of 2000 rows and the whole array of 50000 rows then apply the SAME row
  function, and the tiling never enters the algebra.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The row and the column of an entry of a two-axis array, as numbers below the literal extents. -/
abbrev rowOf {n0 n1 : Nat} (i : (⟨2, ![n0, n1]⟩ : Shape).Idx) : Fin n0 := ⟨(i 0).val, idx2_lt0 i⟩
abbrev colOf {n0 n1 : Nat} (i : (⟨2, ![n0, n1]⟩ : Shape).Idx) : Fin n1 := ⟨(i 1).val, idx2_lt1 i⟩

theorem rowOf_ix2 {n0 n1 : Nat} (r : Fin n0) (q : Fin n1) : rowOf (ix2 r q) = r := rfl
theorem colOf_ix2 {n0 n1 : Nat} (r : Fin n0) (q : Fin n1) : colOf (ix2 r q) = q := rfl

/-- The pattern of minus infinity, kept as a pattern: both programs floor a row's maximum by it. -/
abbrev negInf : EReal := Ideal.ofBits .f32 0xFF800000#32
/-- The pattern of zero, kept as a pattern: the rectifier's floor. -/
abbrev zeroPat : EReal := Ideal.ofBits .f32 0x00000000#32

/-! ## The row functions -/

/-- One row of a dense product with 128 inner features: entry q is the sum over k of x k · w (k, q). -/
def linRow {q : Nat} (x : Fin 128 → EReal) (w : (⟨2, ![128, q]⟩ : Shape).Idx → EReal) (c : Fin q) : EReal :=
  ∑ k : Fin 128, x k * w (ix2 k c)

/-- One entry of bias-then-rectifier: max (a + b) 0. -/
def reluAt (a b : EReal) : EReal := max (a + b) zeroPat

/-- The largest entry of a row of 40, from the minus-infinity pattern, floored once more by it. -/
def rowMax (z : Fin 40 → EReal) : EReal :=
  max negInf ((Finset.univ : Finset (Fin 40)).fold max negInf z)

/-- One row of the logarithm of the softmax of a + b: with z = a + b and M the row's maximum,
    entry q is (z q − M) − log Σₖ exp (z k − M). -/
def lsmRow (a b : Fin 40 → EReal) (q : Fin 40) : EReal :=
  ((a q + b q) - rowMax (fun k => a k + b k))
    - Ideal.log (∑ k : Fin 40, Ideal.exp ((a k + b k) - rowMax (fun k => a k + b k)))

/-- A vector of n entries as the one row of a [1, n] array: how each program hands a bias to its last step. -/
def asRow (n : Nat) (v : (⟨1, ![n]⟩ : Shape).Idx → EReal) : (⟨2, ![1, n]⟩ : Shape).Idx → EReal :=
  fun j => v (ix1 (colOf j))

theorem asRow_apply (n : Nat) (v : (⟨1, ![n]⟩ : Shape).Idx → EReal) (k : Fin n) :
    asRow n v (ix2 (0 : Fin 1) k) = v (ix1 k) := rfl

/-! ## The four whole-array functions, each its row function at every row -/

/-- x · w for n rows of 128 features into q columns. -/
def linear (n q : Nat) (x : (⟨2, ![n, 128]⟩ : Shape).Idx → EReal) (w : (⟨2, ![128, q]⟩ : Shape).Idx → EReal) :
    (⟨2, ![n, q]⟩ : Shape).Idx → EReal :=
  fun i => linRow (fun k => x (ix2 (rowOf i) k)) w (colOf i)

/-- max (a + b) 0 with b one row of 128 laid along every row. -/
def biasRelu (n : Nat) (a : (⟨2, ![n, 128]⟩ : Shape).Idx → EReal) (b : (⟨2, ![1, 128]⟩ : Shape).Idx → EReal) :
    (⟨2, ![n, 128]⟩ : Shape).Idx → EReal :=
  fun i => reluAt (a i) (b (ix2 (0 : Fin 1) (colOf i)))

/-- log softmax (a + b) along each row of 40, with b one row laid along every row. -/
def biasLogSoftmax (n : Nat) (a : (⟨2, ![n, 40]⟩ : Shape).Idx → EReal) (b : (⟨2, ![1, 40]⟩ : Shape).Idx → EReal) :
    (⟨2, ![n, 40]⟩ : Shape).Idx → EReal :=
  fun i => lsmRow (fun k => a (ix2 (rowOf i) k)) (fun k => b (ix2 (0 : Fin 1) k)) (colOf i)

/-! ## The same, read at row r and column q -/

theorem linear_apply (n q : Nat) (x : (⟨2, ![n, 128]⟩ : Shape).Idx → EReal) (w : (⟨2, ![128, q]⟩ : Shape).Idx → EReal)
    (r : Fin n) (c : Fin q) : linear n q x w (ix2 r c) = linRow (fun k => x (ix2 r k)) w c := rfl

theorem biasRelu_apply (n : Nat) (a : (⟨2, ![n, 128]⟩ : Shape).Idx → EReal) (b : (⟨2, ![1, 128]⟩ : Shape).Idx → EReal)
    (r : Fin n) (q : Fin 128) : biasRelu n a b (ix2 r q) = reluAt (a (ix2 r q)) (b (ix2 (0 : Fin 1) q)) := rfl

theorem biasLogSoftmax_apply (n : Nat) (a : (⟨2, ![n, 40]⟩ : Shape).Idx → EReal) (b : (⟨2, ![1, 40]⟩ : Shape).Idx → EReal)
    (r : Fin n) (q : Fin 40) :
    biasLogSoftmax n a b (ix2 r q) = lsmRow (fun k => a (ix2 r k)) (fun k => b (ix2 (0 : Fin 1) k)) q := rfl

/-! ## A tile of rows of the whole array is the same function of the tile -/

/-- Row `base + p` of the whole array, read through a tile that starts at row `base`. -/
theorem linear_tile (n n' q : Nat) (x : (⟨2, ![n, 128]⟩ : Shape).Idx → EReal) (x' : (⟨2, ![n', 128]⟩ : Shape).Idx → EReal)
    (w : (⟨2, ![128, q]⟩ : Shape).Idx → EReal) (r : Fin n) (p : Fin n') (c : Fin q)
    (hrow : ∀ k : Fin 128, x' (ix2 p k) = x (ix2 r k)) :
    linear n' q x' w (ix2 p c) = linear n q x w (ix2 r c) := by
  show linRow (fun k => x' (ix2 p k)) w c = linRow (fun k => x (ix2 r k)) w c
  exact congrArg (fun f => linRow f w c) (funext hrow)

theorem biasLogSoftmax_tile (n n' : Nat) (a : (⟨2, ![n, 40]⟩ : Shape).Idx → EReal) (a' : (⟨2, ![n', 40]⟩ : Shape).Idx → EReal)
    (b : (⟨2, ![1, 40]⟩ : Shape).Idx → EReal) (r : Fin n) (p : Fin n') (c : Fin 40)
    (hrow : ∀ k : Fin 40, a' (ix2 p k) = a (ix2 r k)) :
    biasLogSoftmax n' a' b (ix2 p c) = biasLogSoftmax n a b (ix2 r c) := by
  show lsmRow (fun k => a' (ix2 p k)) _ c = lsmRow (fun k => a (ix2 r k)) _ c
  exact congrArg (fun f => lsmRow f (fun k => b (ix2 (0 : Fin 1) k)) c) (funext hrow)

end Cert.GcnSpec

end
-- ==== Proof.Region0.lean ====
/-
  The first launch (features times the first weight matrix): what the array it writes holds when
  the launch ends.

  The launch walks 25 tiles of 2000 rows. At tile t the body loads rows 2000·t … 2000·t + 1999 of the
  features and the whole 128 × 128 weight matrix, narrows both to bf16 (the identity on extended
  reals), multiplies them into a zero accumulator and stores the product over the whole tile. Entry
  (p, q) of a tile's product is Σₖ x(p, k) · w(k, q): a function of row p of the tile alone. So tile t
  of the result is tile t of ONE whole-array function, `GcnSpec.linear`, and the 25 tiles cover the array.
-/
import proofs.«145185_j60722247631127_1_alg».proof.Proof.Gen.KernelIdeal.Frame
import proofs.«145185_j60722247631127_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

-- the buffers as the launch finds them
variable (V : (c : Dev nD) → (b : Ref sig .tc) → Buf (Elt Ideal) ((c : Thread nD τ).loc b))

theorem origin_zero : (![0, 0] : Fin 2 → Nat) = fun _ => 0 := funext fun a => by fin_cases a <;> rfl

/-! ## The product's operand indices, axis by axis: at output (r, c) and inner index k the left operand is read at
    (r, k) and the right at (k, c) -/

theorem lhs_axis0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
theorem rhs_axis0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
theorem rhs_axis1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One entry of what the body stores: row p of the tile times column q of the weights. -/
theorem stored_apply (x : Vec Ideal S2000x128 .f32) (w : Vec Ideal S128x128 .f32) (p : Fin 2000) (q : Fin 128) :
    k0_pay1 (F := Ideal) x w (ix2 p q) = linRow (fun k => x (ix2 p k)) w q := by
  unfold k0_pay1 linRow
  show FloatOps.matmul dot_S2000x128_S128x128_S2000x128_1_0_0_1_n_n none (truncf .bf16 x _) (truncf .bf16 w _)
      (constant (F := Ideal) S2000x128 .f32 0x00000000#32) (ix2 p q) = ∑ k : Fin 128, x (ix2 p k) * w (ix2 k q)
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-- Where the tiles sit: the features' tile and the result's tile at point t both start at row 2000·t and
    column 0, and the weights' window is the whole matrix at every point. -/
theorem tile_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the whole-array product. -/
theorem flushed_eq (c : Dev nD) (t : Fin cfg0.N) :
    (dat0 (F := Ideal) V c).flushed 2 t
      = ((cfg0.win 2).blk t).view.read (Elt Ideal) (linear 50000 128 (V c main_arg0) (V c main_arg2)) := by
  show (cfg0.win 2).cut (grid0.coords t) ((dat0 (F := Ideal) V c).after 2 t) = _
  rw [after0_2]
  unfold out0_2
  rw [View.canon_unit_zero origin_zero]
  simp only [View.ld_unit_zero (S := S2000x128) origin_zero, View.ld_unit_zero (S := S128x128) origin_zero]
  obtain ⟨e0, e1, e2, e3, e4, e5⟩ := tile_rows t
  funext j
  obtain ⟨p, q, rfl⟩ : ∃ (p : Fin 2000) (q : Fin 128), j = ix2 p q := ⟨j 0, j 1, eq_ix2 j⟩
  refine (stored_apply (iblk0 V c 0 t) (iblk0 V c 1 t) p q).trans ?_
  have hx : ∀ k : Fin 128, ((cfg0.win 0).blk t).view.emb (ix2 p k) = ix2 (rowOf (((cfg0.win 2).blk t).view.emb (ix2 p q))) k := by
    intro k; funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hw : ∀ y : S128x128.Idx, ((cfg0.win 1).blk t).view.emb y = y := by
    intro y; funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hcol : colOf (((cfg0.win 2).blk t).view.emb (ix2 p q)) = q := by
    apply Fin.ext
    show win0_2.index t (1 : Fin 2) * 128 + 1 * q.val = q.val; omega
  show linRow (fun k => V c main_arg0 (((cfg0.win 0).blk t).view.emb (ix2 p k))) (fun y => V c main_arg2 (((cfg0.win 1).blk t).view.emb y)) q
    = linRow (fun k => V c main_arg0 (ix2 (rowOf (((cfg0.win 2).blk t).view.emb (ix2 p q))) k)) (V c main_arg2) (colOf (((cfg0.win 2).blk t).view.emb (ix2 p q)))
  rw [hcol]
  exact congrArg₂ (fun f g => linRow f g q) (funext fun k => congrArg (V c main_arg0) (hx k)) (funext fun y => congrArg (V c main_arg2) (hw y))

/-- An entry is in point t's tile iff each coordinate is in the tile's range on its axis. -/
theorem mem_tile (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- Every entry of the array lies in the tile of the point row / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := tile_rows t
  have ht : t.val = (i 0).val / 2000 := rfl
  refine ⟨t, flush0_2 t, ?_⟩
  rw [mem_tile]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE ARRAY the launch leaves: the features times the weights, entry by entry, of the arrays it found. -/
theorem final (c : Dev nD) :
    (dat0 (F := Ideal) V c).arrAt 2 cfg0.N = linear 50000 128 (V c main_arg0) (V c main_arg2) :=
  (dat0 (F := Ideal) V c).arrAt_eq_of_cover 2 _ (fun t _ => flushed_eq V c t) (covered)

end Cert.KernelIdeal.Region0

end
-- ==== Proof.Region1.lean ====
/-
  The second launch (bias, then the rectifier): what the array it writes holds when the launch ends.

  The launch walks 25 tiles of 2000 rows. At tile t the body loads rows 2000·t … 2000·t + 1999 of
  the aggregated features and the one bias row, and stores max (a + b) 0 over the whole tile. Every
  entry of the result depends on the entry above it and on the bias of its column, so tile t of the
  result is tile t of ONE whole-array function, `GcnSpec.biasRelu`, and the 25 tiles cover the array.
-/
import proofs.«145185_j60722247631127_1_alg».proof.Proof.Gen.KernelIdeal.Frame
import proofs.«145185_j60722247631127_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

-- the buffers as the launch finds them
variable (V : (c : Dev nD) → (b : Ref sig .tc) → Buf (Elt Ideal) ((c : Thread nD τ).loc b))

theorem origin_zero : (![0, 0] : Fin 2 → Nat) = fun _ => 0 := funext fun a => by fin_cases a <;> rfl

/-- One entry of what the body stores: max (x + b) 0 at that entry, the bias read in its column. -/
theorem stored_apply (b : Vec Ideal S1x128 .f32) (x : Vec Ideal S2000x128 .f32) (p : Fin 2000) (q : Fin 128) :
    k1_pay1 (F := Ideal) b x (ix2 p q) = reluAt (x (ix2 p q)) (b (ix2 (0 : Fin 1) q)) := by
  unfold k1_pay1 reluAt
  simp only [shapeCast_self]
  show max (x (ix2 p q) + broadcastTo S2000x128 b _ (ix2 p q)) _ = _
  rw [broadcastTo_1b_ab_apply]
  rfl

/-- Where the tiles sit: the aggregated features' tile and the result's tile at point t both start at row
    2000·t and column 0, and the bias window is the whole row at every point. -/
theorem tile_rows : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is tile t of the whole-array function. -/
theorem flushed_eq (c : Dev nD) (t : Fin cfg1.N) :
    (dat1 (F := Ideal) V c).flushed 2 t
      = ((cfg1.win 2).blk t).view.read (Elt Ideal) (biasRelu 50000 (V c main_v40) (V c main_v41)) := by
  show (cfg1.win 2).cut (grid1.coords t) ((dat1 (F := Ideal) V c).after 2 t) = _
  rw [after1_2]
  unfold out1_2
  rw [View.canon_unit_zero origin_zero]
  simp only [View.ld_unit_zero (S := S1x128) origin_zero, View.ld_unit_zero (S := S2000x128) origin_zero]
  obtain ⟨e0, e1, e2, e3, e4, e5⟩ := tile_rows t
  funext j
  obtain ⟨p, q, rfl⟩ : ∃ (p : Fin 2000) (q : Fin 128), j = ix2 p q := ⟨j 0, j 1, eq_ix2 j⟩
  refine (stored_apply (iblk1 V c 1 t) (iblk1 V c 0 t) p q).trans ?_
  have hin : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have hb : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have hcol : colOf (((cfg1.win 2).blk t).view.emb (ix2 p q)) = q := by
    apply Fin.ext
    show win1_2.index t (1 : Fin 2) * 128 + 1 * q.val = q.val; omega
  show reluAt (V c main_v40 (((cfg1.win 0).blk t).view.emb (ix2 p q))) (V c main_v41 (((cfg1.win 1).blk t).view.emb (ix2 (0 : Fin 1) q)))
    = reluAt (V c main_v40 (((cfg1.win 2).blk t).view.emb (ix2 p q))) (V c main_v41 (ix2 (0 : Fin 1) (colOf (((cfg1.win 2).blk t).view.emb (ix2 p q)))))
  rw [hin, hb, hcol]

/-- An entry is in point t's tile iff each coordinate is in the tile's range on its axis. -/
theorem mem_tile (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v42).slice (win1_2.rect t)).set ↔ _
  rw [View.set_slice_whole, Rect.mem_set_unit]
  exact Iff.rfl

/-- Every entry of the array lies in the tile of the point row / 2000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1, e2, e3, e4, e5⟩ := tile_rows t
  have ht : t.val = (i 0).val / 2000 := rfl
  refine ⟨t, flush1_2 t, ?_⟩
  rw [mem_tile]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE ARRAY the launch leaves: max (aggregate + bias) 0, entry by entry, of the arrays it found. -/
theorem final (c : Dev nD) :
    (dat1 (F := Ideal) V c).arrAt 2 cfg1.N = biasRelu 50000 (V c main_v40) (V c main_v41) :=
  (dat1 (F := Ideal) V c).arrAt_eq_of_cover 2 _ (fun t _ => flushed_eq V c t) (covered)

end Cert.KernelIdeal.Region1

end
-- ==== Proof.Region2.lean ====
/-
  The third launch (hidden features times the second weight matrix): what the array it writes holds
  when the launch ends.

  The launch walks 25 tiles of 2000 rows. At tile t the body loads rows 2000·t … 2000·t + 1999 of the
  hidden features (128 columns) and the whole 128 × 40 weight matrix, narrows both to bf16 (the identity on
  extended reals), multiplies them into a zero accumulator and stores the 2000 × 40 product over the whole
  tile. Entry (p, q) of a tile's product is Σₖ x(p, k) · w(k, q): a function of row p of the tile alone. So
  tile t of the result is tile t of ONE whole-array function, `GcnSpec.linear`, and the 25 tiles cover the array.
-/
import proofs.«145185_j60722247631127_1_alg».proof.Proof.Gen.KernelIdeal.Frame
import proofs.«145185_j60722247631127_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

-- the buffers as the launch finds them
variable (V : (c : Dev nD) → (b : Ref sig .tc) → Buf (Elt Ideal) ((c : Thread nD τ).loc b))

theorem origin_zero : (![0, 0] : Fin 2 → Nat) = fun _ => 0 := funext fun a => by fin_cases a <;> rfl

/-! ## The product's operand indices, axis by axis: at output (r, c) and inner index k the left operand is read at
    (r, k) and the right at (k, c) -/

theorem lhs_axis0 (i : S2000x40.Idx) (k : dot_S2000x128_S128x40_S2000x40_1_0_0_1_n_n.contr.Idx) :
    (dot_S2000x128_S128x40_S2000x40_1_0_0_1_n_n.lhsIdx i k 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs_axis1 (i : S2000x40.Idx) (k : dot_S2000x128_S128x40_S2000x40_1_0_0_1_n_n.contr.Idx) :
    (dot_S2000x128_S128x40_S2000x40_1_0_0_1_n_n.lhsIdx i k 1).val = (k ⟨0, by decide⟩).val :=
  dot_S2000x128_S128x40_S2000x40_1_0_0_1_n_n.lhsIdx_val_of_single rfl i k
theorem rhs_axis0 (i : S2000x40.Idx) (k : dot_S2000x128_S128x40_S2000x40_1_0_0_1_n_n.contr.Idx) :
    (dot_S2000x128_S128x40_S2000x40_1_0_0_1_n_n.rhsIdx i k 0).val = (k ⟨0, by decide⟩).val :=
  dot_S2000x128_S128x40_S2000x40_1_0_0_1_n_n.rhsIdx_val_of_single rfl i k
theorem rhs_axis1 (i : S2000x40.Idx) (k : dot_S2000x128_S128x40_S2000x40_1_0_0_1_n_n.contr.Idx) :
    (dot_S2000x128_S128x40_S2000x40_1_0_0_1_n_n.rhsIdx i k 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- One entry of what the body stores: row p of the tile times column q of the weights. -/
theorem stored_apply (x : Vec Ideal S2000x128 .f32) (w : Vec Ideal S128x40 .f32) (p : Fin 2000) (q : Fin 40) :
    k2_pay1 (F := Ideal) x w (ix2 p q) = linRow (fun k => x (ix2 p k)) w q := by
  unfold k2_pay1 linRow
  simp only [shapeCast_self]
  show FloatOps.matmul dot_S2000x128_S128x40_S2000x40_1_0_0_1_n_n none (truncf .bf16 x _) (truncf .bf16 w _)
      (constant (F := Ideal) S2000x40 .f32 0x00000000#32) (ix2 p q) = ∑ k : Fin 128, x (ix2 p k) * w (ix2 k q)
  rw [Ideal.matmul_constant_zero_apply, ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q) ((contrEquiv1 dot_S2000x128_S128x40_S2000x40_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x40_S2000x40_1_0_0_1_n_n.rhsIdx (ix2 p q) ((contrEquiv1 dot_S2000x128_S128x40_S2000x40_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-- Where the tiles sit: the hidden features' tile and the result's tile at point t both start at row 2000·t and
    column 0, and the weights' window is the whole matrix at every point. -/
theorem tile_rows : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is tile t of the whole-array product. -/
theorem flushed_eq (c : Dev nD) (t : Fin cfg2.N) :
    (dat2 (F := Ideal) V c).flushed 2 t
      = ((cfg2.win 2).blk t).view.read (Elt Ideal) (linear 50000 40 (V c main_v42) (V c main_arg4)) := by
  show (cfg2.win 2).cut (grid2.coords t) ((dat2 (F := Ideal) V c).after 2 t) = _
  rw [after2_2]
  unfold out2_2
  rw [View.canon_unit_zero origin_zero]
  simp only [View.ld_unit_zero (S := S2000x128) origin_zero, View.ld_unit_zero (S := S128x40) origin_zero]
  obtain ⟨e0, e1, e2, e3, e4, e5⟩ := tile_rows t
  funext j
  obtain ⟨p, q, rfl⟩ : ∃ (p : Fin 2000) (q : Fin 40), j = ix2 p q := ⟨j 0, j 1, eq_ix2 j⟩
  refine (stored_apply (iblk2 V c 0 t) (iblk2 V c 1 t) p q).trans ?_
  have hx : ∀ k : Fin 128, ((cfg2.win 0).blk t).view.emb (ix2 p k) = ix2 (rowOf (((cfg2.win 2).blk t).view.emb (ix2 p q))) k := by
    intro k; funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have hw : ∀ y : S128x40.Idx, ((cfg2.win 1).blk t).view.emb y = y := by
    intro y; funext a; apply Fin.ext
    match a with
    | ⟨0, _⟩ => show win2_1.index t (0 : Fin 2) * 128 + 1 * (y 0).val = (y 0).val; omega
    | ⟨1, _⟩ => show win2_1.index t (1 : Fin 2) * 40 + 1 * (y 1).val = (y 1).val; omega
  have hcol : colOf (((cfg2.win 2).blk t).view.emb (ix2 p q)) = q := by
    apply Fin.ext
    show win2_2.index t (1 : Fin 2) * 40 + 1 * q.val = q.val; omega
  show linRow (fun k => V c main_v42 (((cfg2.win 0).blk t).view.emb (ix2 p k))) (fun y => V c main_arg4 (((cfg2.win 1).blk t).view.emb y)) q
    = linRow (fun k => V c main_v42 (ix2 (rowOf (((cfg2.win 2).blk t).view.emb (ix2 p q))) k)) (V c main_arg4) (colOf (((cfg2.win 2).blk t).view.emb (ix2 p q)))
  rw [hcol]
  exact congrArg₂ (fun f g => linRow f g q) (funext fun k => congrArg (V c main_v42) (hx k)) (funext fun y => congrArg (V c main_arg4) (hw y))

/-- An entry is in point t's tile iff each coordinate is in the tile's range on its axis. -/
theorem mem_tile (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v43).slice (win2_2.rect t)).set ↔ _
  rw [View.set_slice_whole, Rect.mem_set_unit]
  exact Iff.rfl

/-- Every entry of the array lies in the tile of the point row / 2000. -/
theorem covered (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 25 := N_2
  let t : Fin cfg2.N := ⟨(i 0).val / 2000, by rw [hN]; omega⟩
  obtain ⟨e0, e1, e2, e3, e4, e5⟩ := tile_rows t
  have ht : t.val = (i 0).val / 2000 := rfl
  refine ⟨t, flush2_2 t, ?_⟩
  rw [mem_tile]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- THE ARRAY the launch leaves: the hidden features times the weights, entry by entry, of the arrays it found. -/
theorem final (c : Dev nD) :
    (dat2 (F := Ideal) V c).arrAt 2 cfg2.N = linear 50000 40 (V c main_v42) (V c main_arg4) :=
  (dat2 (F := Ideal) V c).arrAt_eq_of_cover 2 _ (fun t _ => flushed_eq V c t) (covered)

end Cert.KernelIdeal.Region2

end
-- ==== Proof.Region3.lean ====
/-
  The fourth launch (bias, then the logarithm of the softmax along each row): what the array it writes
  holds when the launch ends.

  The launch walks 25 tiles of 2000 rows of 40 classes. At tile t the body loads rows 2000·t … 2000·t + 1999
  of the aggregated scores and the one bias row, forms z = a + b, takes each row's maximum M (a fold of max
  over the row's 40 entries from minus infinity, floored once more by minus infinity), and stores
  (z − M) − log Σₖ exp (z k − M) over the whole tile. Every entry of the result depends on its own row of the
  tile only, and a tile holds whole rows, so tile t of the result is tile t of ONE whole-array function,
  `GcnSpec.biasLogSoftmax`, and the 25 tiles cover the array.
-/
import proofs.«145185_j60722247631127_1_alg».proof.Proof.Gen.KernelIdeal.Frame
import proofs.«145185_j60722247631127_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

-- the buffers as the launch finds them
variable (V : (c : Dev nD) → (b : Ref sig .tc) → Buf (Elt Ideal) ((c : Thread nD τ).loc b))

theorem origin_zero : (![0, 0] : Fin 2 → Nat) = fun _ => 0 := funext fun a => by fin_cases a <;> rfl

/-! ## A column of one value per row, laid along the 40 columns -/

/-- A [2000, 1] column laid along 40 columns, read at (p, q), is the column at (p, 0). -/
theorem bcastCol_apply {α : Type} (y : S2000x1.Idx → α) (hb : S2000x1.Broadcasts S2000x40) (p : Fin 2000) (q : Fin 40) :
    broadcastTo S2000x40 y hb (ix2 p q) = y (ix2 p (0 : Fin 1)) := by
  refine broadcastTo_apply y hb (ix2 p q) (ix2 p (0 : Fin 1)) (fun a => ?_)
  match a with
  | ⟨0, _⟩ => show p.val = if (2000 : Nat) = 1 then 0 else p.val; rw [if_neg (by decide)]
  | ⟨1, _⟩ => show (0 : Nat) = if (1 : Nat) = 1 then 0 else q.val; rw [if_pos rfl]

/-- One value per row recast as a [2000, 1] column, read at (p, 0), is the value of row p. -/
theorem castCol_apply {α : Type} (u : S2000.Idx → α) (hc : S2000.ShapeCasts S2000x1) (p : Fin 2000) :
    shapeCast S2000x1 u hc (ix2 p (0 : Fin 1)) = u (ix1 p) :=
  shapeCast_apply u hc (ix2 p (0 : Fin 1)) (ix1 p) (by
    rw [Shape.rowMajor_val_one, Shape.rowMajor_val_two]; show p.val = p.val * 1 + 0; omega)

/-- Both together: one value per row, laid along the columns, read at (p, q), is the value of row p. -/
theorem keepCol_apply {α : Type} (u : S2000.Idx → α) (hc : S2000.ShapeCasts S2000x1) (hb : S2000x1.Broadcasts S2000x40)
    (p : Fin 2000) (q : Fin 40) : broadcastTo S2000x40 (shapeCast S2000x1 u hc) hb (ix2 p q) = u (ix1 p) :=
  (bcastCol_apply _ hb p q).trans (castCol_apply u hc p)

/-! ## The two reductions along a row -/

/-- The entry of row p that sits over column k. -/
theorem lift_row (h : S2000x40.Reduces [1] S2000) (p : Fin 2000) (k : Fin 40) : h.lift (ix1 p) k = ix2 p k :=
  funext fun a => Fin.ext (by match a with | ⟨0, _⟩ => rfl | ⟨1, _⟩ => rfl)

/-- The row maximum the body takes, floored by minus infinity, is the specification's. -/
theorem rowMax_apply (z : FVec Ideal S2000x40 .f32) (h : S2000x40.Reduces [1] S2000) (hφ : FKind.Formats .f32)
    (hacc : (0xFF800000#32 : BitVec (FTy.bits .f32)) = FKind.maximumf.neutral .f32 hφ) (p : Fin 2000) :
    max negInf (multiReduction .maximumf [1] S2000 z 0xFF800000#32 h hφ hacc (ix1 p)) = rowMax (fun k => z (ix2 p k)) := by
  unfold rowMax
  refine congrArg (max negInf) ?_
  refine (Ideal.multiReduction_maximumf_single z 0xFF800000#32 h hφ hacc (ix1 p)).trans ?_
  show (Finset.univ : Finset (Fin 40)).fold max negInf (fun k => z (h.lift (ix1 p) k)) = _
  exact Finset.fold_congr (fun k _ => congrArg z (lift_row h p k))

/-- The row sum the body takes is the sum over the row's 40 entries. -/
theorem rowSum_apply (e : FVec Ideal S2000x40 .f32) (h : S2000x40.Reduces [1] S2000) (hφ : FKind.Formats .f32)
    (hacc : (0x00000000#32 : BitVec (FTy.bits .f32)) = FKind.add.neutral .f32 hφ) (p : Fin 2000) :
    multiReduction .add [1] S2000 e 0x00000000#32 h hφ hacc (ix1 p) = ∑ k : Fin 40, e (ix2 p k) := by
  refine (Ideal.multiReduction_add_single e 0x00000000#32 h hφ hacc (ix1 p)).trans ?_
  show ∑ k : Fin 40, e (h.lift (ix1 p) k) = _
  exact Finset.sum_congr rfl (fun k _ => congrArg e (lift_row h p k))

/-! ## What the body stores -/

/-- The body after the bias is added, as a function of z = a + b: subtract each row's maximum, then subtract the
    logarithm of the row's sum of exponentials. -/
def afterBias (h : S2000x40.Reduces [1] S2000) (hc : S2000.ShapeCasts S2000x1) (hb : S2000x1.Broadcasts S2000x40)
    (z : FVec Ideal S2000x40 .f32) : FVec Ideal S2000x40 .f32 :=
  subf (subf z (broadcastTo S2000x40 (shapeCast S2000x1 (maximumf (broadcast S2000 (Scalar.ofBits .f32 0xFF800000#32)) (multiReduction .maximumf [1] S2000 z 0xFF800000#32 h (.inl rfl) rfl)) hc) hb))
    (broadcastTo S2000x40 (log (shapeCast S2000x1 (multiReduction .add [1] S2000 (exp (subf z (broadcastTo S2000x40 (shapeCast S2000x1 (maximumf (broadcast S2000 (Scalar.ofBits .f32 0xFF800000#32)) (multiReduction .maximumf [1] S2000 z 0xFF800000#32 h (.inl rfl) rfl)) hc) hb))) 0x00000000#32 h (.inl rfl) rfl) hc)) hb)

/-- One entry of it: (z − M) − log Σₖ exp (z k − M) along row p. -/
theorem afterBias_apply (h : S2000x40.Reduces [1] S2000) (hc : S2000.ShapeCasts S2000x1) (hb : S2000x1.Broadcasts S2000x40)
    (z : FVec Ideal S2000x40 .f32) (p : Fin 2000) (q : Fin 40) :
    afterBias h hc hb z (ix2 p q)
      = (z (ix2 p q) - rowMax (fun k => z (ix2 p k)))
        - Ideal.log (∑ k : Fin 40, Ideal.exp (z (ix2 p k) - rowMax (fun k => z (ix2 p k)))) := by
  unfold afterBias
  generalize hM : maximumf (broadcast S2000 (Scalar.ofBits (F := Ideal) .f32 0xFF800000#32)) (multiReduction .maximumf [1] S2000 z 0xFF800000#32 h (.inl rfl) rfl) = M
  have hMp : M (ix1 p) = rowMax (fun k => z (ix2 p k)) := by
    rw [← hM]; exact rowMax_apply z h _ _ p
  have hrow : ∀ k : Fin 40, (subf z (broadcastTo S2000x40 (shapeCast S2000x1 M hc) hb)) (ix2 p k) = z (ix2 p k) - rowMax (fun k => z (ix2 p k)) := by
    intro k
    show z (ix2 p k) - broadcastTo S2000x40 (shapeCast S2000x1 M hc) hb (ix2 p k) = _
    rw [keepCol_apply, hMp]
  show (subf z (broadcastTo S2000x40 (shapeCast S2000x1 M hc) hb)) (ix2 p q)
      - broadcastTo S2000x40 (log (shapeCast S2000x1 (multiReduction .add [1] S2000 (exp (subf z (broadcastTo S2000x40 (shapeCast S2000x1 M hc) hb))) 0x00000000#32 h (.inl rfl) rfl) hc)) hb (ix2 p q) = _
  rw [hrow q, bcastCol_apply]
  show _ - Ideal.log (shapeCast S2000x1 (multiReduction .add [1] S2000 (exp (subf z (broadcastTo S2000x40 (shapeCast S2000x1 M hc) hb))) 0x00000000#32 h (.inl rfl) rfl) hc (ix2 p (0 : Fin 1))) = _
  rw [castCol_apply]
  refine congrArg (fun s => (z (ix2 p q) - rowMax (fun k => z (ix2 p k))) - Ideal.log s) ?_
  refine (rowSum_apply _ h _ _ p).trans ?_
  refine Finset.sum_congr rfl fun k _ => ?_
  show Ideal.exp ((subf z (broadcastTo S2000x40 (shapeCast S2000x1 M hc) hb)) (ix2 p k)) = _
  rw [hrow k]

/-- One entry of what the body stores: the row function of the specification at row p of the tile. -/
theorem stored_apply (b : FVec Ideal S1x40 .f32) (x : FVec Ideal S2000x40 .f32) (p : Fin 2000) (q : Fin 40) :
    k3_pay1 (F := Ideal) b x (ix2 p q) = lsmRow (fun k => x (ix2 p k)) (fun k => b (ix2 (0 : Fin 1) k)) q := by
  have hz : ∀ k : Fin 40, (addf x (broadcastTo S2000x40 b broadcasts_S1x40_S2000x40)) (ix2 p k) = x (ix2 p k) + b (ix2 (0 : Fin 1) k) := by
    intro k
    show x (ix2 p k) + broadcastTo S2000x40 b _ (ix2 p k) = _
    rw [broadcastTo_1b_ab_apply]
  have e : k3_pay1 (F := Ideal) b x = afterBias reduces_S2000x40_S2000 shapeCasts_S2000_S2000x1 broadcasts_S2000x1_S2000x40 (addf x (broadcastTo S2000x40 b broadcasts_S1x40_S2000x40)) := by
    unfold k3_pay1 afterBias
    simp only [shapeCast_self]
  rw [e, afterBias_apply]
  unfold lsmRow
  simp only [hz]

/-- Where the tiles sit: the scores' tile and the result's tile at point t both start at row 2000·t and
    column 0, and the bias window is the whole row at every point. -/
theorem tile_rows : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is tile t of the whole-array function. -/
theorem flushed_eq (c : Dev nD) (t : Fin cfg3.N) :
    (dat3 (F := Ideal) V c).flushed 2 t
      = ((cfg3.win 2).blk t).view.read (Elt Ideal) (biasLogSoftmax 50000 (V c main_v56) (V c main_v57)) := by
  show (cfg3.win 2).cut (grid3.coords t) ((dat3 (F := Ideal) V c).after 2 t) = _
  rw [after3_2]
  unfold out3_2
  rw [View.canon_unit_zero origin_zero]
  simp only [View.ld_unit_zero (S := S1x40) origin_zero, View.ld_unit_zero (S := S2000x40) origin_zero]
  obtain ⟨e0, e1, e2, e3, e4, e5⟩ := tile_rows t
  funext j
  obtain ⟨p, q, rfl⟩ : ∃ (p : Fin 2000) (q : Fin 40), j = ix2 p q := ⟨j 0, j 1, eq_ix2 j⟩
  refine (stored_apply (iblk3 V c 1 t) (iblk3 V c 0 t) p q).trans ?_
  have hx : ∀ k : Fin 40, ((cfg3.win 0).blk t).view.emb (ix2 p k) = ix2 (rowOf (((cfg3.win 2).blk t).view.emb (ix2 p q))) k := by
    intro k; funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 40 + 1 * k.val = k.val; omega
  have hb : ∀ k : Fin 40, ((cfg3.win 1).blk t).view.emb (ix2 (0 : Fin 1) k) = ix2 (0 : Fin 1) k := by
    intro k; funext a; apply Fin.ext
    match a with
    | ⟨0, _⟩ => show win3_1.index t (0 : Fin 2) * 1 + 1 * 0 = 0; omega
    | ⟨1, _⟩ => show win3_1.index t (1 : Fin 2) * 40 + 1 * k.val = k.val; omega
  have hcol : colOf (((cfg3.win 2).blk t).view.emb (ix2 p q)) = q := by
    apply Fin.ext
    show win3_2.index t (1 : Fin 2) * 40 + 1 * q.val = q.val; omega
  show lsmRow (fun k => V c main_v56 (((cfg3.win 0).blk t).view.emb (ix2 p k))) (fun k => V c main_v57 (((cfg3.win 1).blk t).view.emb (ix2 (0 : Fin 1) k))) q
    = lsmRow (fun k => V c main_v56 (ix2 (rowOf (((cfg3.win 2).blk t).view.emb (ix2 p q))) k)) (fun k => V c main_v57 (ix2 (0 : Fin 1) k)) (colOf (((cfg3.win 2).blk t).view.emb (ix2 p q)))
  rw [hcol]
  exact congrArg₂ (fun f g => lsmRow f g q) (funext fun k => congrArg (V c main_v56) (hx k)) (funext fun k => congrArg (V c main_v57) (hb k))

/-- An entry is in point t's tile iff each coordinate is in the tile's range on its axis. -/
theorem mem_tile (t : Fin cfg3.N) (i : S50000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v58).slice (win3_2.rect t)).set ↔ _
  rw [View.set_slice_whole, Rect.mem_set_unit]
  exact Iff.rfl

/-- Every entry of the array lies in the tile of the point row / 2000. -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 25 := N_3
  let t : Fin cfg3.N := ⟨(i 0).val / 2000, by rw [hN]; omega⟩
  obtain ⟨e0, e1, e2, e3, e4, e5⟩ := tile_rows t
  have ht : t.val = (i 0).val / 2000 := rfl
  refine ⟨t, flush3_2 t, ?_⟩
  rw [mem_tile]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 40 ≤ (i 1).val ∧ (i 1).val < win3_2.index t (1 : Fin 2) * 40 + 40; omega

/-- THE ARRAY the launch leaves: the logarithm of the softmax of (scores + bias) along each row, entry by entry, of
    the arrays it found. -/
theorem final (c : Dev nD) :
    (dat3 (F := Ideal) V c).arrAt 2 cfg3.N = biasLogSoftmax 50000 (V c main_v56) (V c main_v57) :=
  (dat3 (F := Ideal) V c).arrAt_eq_of_cover 2 _ (fun t _ => flushed_eq V c t) (covered)

end Cert.KernelIdeal.Region3

end
-- ==== Proof.RefSpec.lean ====
/-
  The reference, stage by stage, is the specification.

  Read entry by entry at the extended reals: the reference's two dense products are `GcnSpec.linear`, its
  bias-and-rectifier is `GcnSpec.biasRelu`, its bias-and-log-softmax is `GcnSpec.biasLogSoftmax`, each applied to
  the stage before it. Between them sit the two normalised neighbourhood sums (gather the rows at the edge
  sources, scale by the edge weights, add into the rows at the destinations): host computations the kernel's
  program performs with the same operations, so they are carried as ONE function of the edge list and of the
  features going in (`agg128`, `agg40`) and never opened.
-/
import proofs.«145185_j60722247631127_1_alg».proof.Proof.RefRead
import proofs.«145185_j60722247631127_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefSpec

open Cert.ReferenceIdeal Cert.ReferenceIdeal.Gen Cert.ReferenceIdeal.ReadP Cert.GcnSpec
open Idealize.ShloMosaic Idealize.ShloMosaic.TcCoe Idealize.SL.Sem Idealize.ShloMosaic.ValueIdx

/-! ## The two neighbourhood sums, as functions of the edge list and the features going in -/

section Chains
variable {F : FTy → Type} [FloatOps F]

/-- The normalised neighbourhood sum of 128-column features. -/
def agg128 (e : (⟨S2x625000, .i32⟩ : BufTy).Contents (Elt F)) (h : (⟨S50000x128, .f32⟩ : BufTy).Contents (Elt F)) :
    (⟨S50000x128, .f32⟩ : BufTy).Contents (Elt F) :=
  Host.scatterAdd scatter_S50000x128_S675000x1_S675000x128_1_0_0_1 (val_main_v38 (F := F)) (val_main_v39 (F := F) e)
    (mulf (Host.gather gather_S50000x128_S675000x1_S675000x128_1_0_n_n_0_1_1128 h (val_main_v33 (F := F) e)) (val_main_v36 (F := F) e))

/-- The normalised neighbourhood sum of 40-column scores. -/
def agg40 (e : (⟨S2x625000, .i32⟩ : BufTy).Contents (Elt F)) (h : (⟨S50000x40, .f32⟩ : BufTy).Contents (Elt F)) :
    (⟨S50000x40, .f32⟩ : BufTy).Contents (Elt F) :=
  Host.scatterAdd scatter_S50000x40_S675000x1_S675000x40_1_0_0_1 (val_main_v56 (F := F)) (val_main_v57 (F := F) e)
    (mulf (Host.gather gather_S50000x40_S675000x1_S675000x40_1_0_n_n_0_1_140 h (val_main_v51 (F := F) e)) (val_main_v54 (F := F) e))

/-- The reference's first aggregate is the neighbourhood sum of its first product. -/
theorem v40_eq (x0 : (⟨S50000x128, .f32⟩ : BufTy).Contents (Elt F)) (x1 : (⟨S2x625000, .i32⟩ : BufTy).Contents (Elt F)) (x2 : (⟨S128x128, .f32⟩ : BufTy).Contents (Elt F)) :
    val_main_v40 (F := F) x0 x1 x2 = agg128 x1 (val_main_v27 (F := F) x0 x2) := rfl

/-- The reference's second aggregate is the neighbourhood sum of its second product. -/
theorem v58_eq (x0 : (⟨S50000x128, .f32⟩ : BufTy).Contents (Elt F)) (x1 : (⟨S2x625000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) :
    val_main_v58 (F := F) x0 x1 x2 x3 x4 = agg40 x1 (val_main_v45 (F := F) x0 x1 x2 x3 x4) := rfl

end Chains

/-! ## The four steps, entry by entry -/

section Steps
variable (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal))

/-- The first dense product. -/
theorem v27_eq : val_main_v27 (F := Ideal) x0 x2 = linear 50000 128 x0 x2 := by
  funext i
  rw [val_main_v27_apply]
  show _ = ∑ k : Fin 128, x0 (ix2 (rowOf i) k) * x2 (ix2 k (colOf i))
  refine Finset.sum_congr rfl fun k _ => ?_
  have el : lidx_main_v27 i k = ix2 (rowOf i) k := funext fun a => Fin.ext (by match a with | ⟨0, _⟩ => rfl | ⟨1, _⟩ => rfl)
  have er : ridx_main_v27 i k = ix2 k (colOf i) := funext fun a => Fin.ext (by match a with | ⟨0, _⟩ => rfl | ⟨1, _⟩ => rfl)
  rw [el, er]

/-- Bias, then the rectifier. -/
theorem v44_eq : val_main_v44 (F := Ideal) x0 x1 x2 x3 = biasRelu 50000 (val_main_v40 (F := Ideal) x0 x1 x2) (asRow 128 x3) := by
  funext i
  rw [val_main_v44_apply, val_main_v43_apply, val_main_v42_apply, val_main_v41_apply, val_main_call0_v0_apply, val_main_call0_cst_apply]
  have e : idx_main_v41 (idx_main_v42 i) = ix1 (colOf i) := funext fun a => Fin.ext (by match a with | ⟨0, _⟩ => rfl)
  rw [e]
  rfl

/-- The second dense product. -/
theorem v45_eq : val_main_v45 (F := Ideal) x0 x1 x2 x3 x4 = linear 50000 40 (val_main_v44 (F := Ideal) x0 x1 x2 x3) x4 := by
  funext i
  rw [val_main_v45_apply]
  show _ = ∑ k : Fin 128, val_main_v44 (F := Ideal) x0 x1 x2 x3 (ix2 (rowOf i) k) * x4 (ix2 k (colOf i))
  refine Finset.sum_congr rfl fun k _ => ?_
  have el : lidx_main_v45 i k = ix2 (rowOf i) k := funext fun a => Fin.ext (by match a with | ⟨0, _⟩ => rfl | ⟨1, _⟩ => rfl)
  have er : ridx_main_v45 i k = ix2 k (colOf i) := funext fun a => Fin.ext (by match a with | ⟨0, _⟩ => rfl | ⟨1, _⟩ => rfl)
  rw [el, er]

/-- The biased scores at an entry. -/
theorem scores_apply (r : Fin 50000) (k : Fin 40) :
    val_main_v61 (F := Ideal) x0 x1 x2 x3 x4 x5 (ix2 r k) = val_main_v58 (F := Ideal) x0 x1 x2 x3 x4 (ix2 r k) + x5 (ix1 k) := by
  rw [val_main_v61_apply, val_main_v60_apply, val_main_v59_apply]
  have e : idx_main_v59 (idx_main_v60 (ix2 r k)) = ix1 k := funext fun a => Fin.ext (by match a with | ⟨0, _⟩ => rfl)
  rw [e]
  rfl

/-- The entry of row r that sits over column k. -/
theorem lift_row (h : S50000x40.Reduces [1] S50000) (r : Fin 50000) (k : Fin 40) : h.lift (ix1 r) k = ix2 r k :=
  funext fun a => Fin.ext (by match a with | ⟨0, _⟩ => rfl | ⟨1, _⟩ => rfl)

/-- Each row's maximum, floored by minus infinity, is the specification's. -/
theorem rowmax_apply (r : Fin 50000) :
    val_main_call1_v2 (F := Ideal) x0 x1 x2 x3 x4 x5 (ix1 r)
      = rowMax (fun k => val_main_v58 (F := Ideal) x0 x1 x2 x3 x4 (ix2 r k) + x5 (ix1 k)) := by
  have hR : S50000x40.Reduces [1] S50000 := by decide
  rw [val_main_call1_v2_apply, val_main_call1_v1_apply, val_main_call1_cst_0_apply]
  unfold val_main_call1_v0 rowMax
  refine congrArg (max negInf) ?_
  refine (Host.reduce_eq_fold_single FloatOps.maximumf _ _ _ hR _ (ix1 r)).trans ?_
  show (Finset.univ : Finset (Fin 40)).fold max negInf (fun k => val_main_v61 (F := Ideal) x0 x1 x2 x3 x4 x5 (hR.lift (ix1 r) k)) = _
  exact Finset.fold_congr (fun k _ => (congrArg (val_main_v61 (F := Ideal) x0 x1 x2 x3 x4 x5) (lift_row hR r k)).trans (scores_apply x0 x1 x2 x3 x4 x5 r k))

/-- The scores of row r less the row's maximum. -/
theorem shifted_apply (r : Fin 50000) (k : Fin 40) :
    val_main_call1_v5 (F := Ideal) x0 x1 x2 x3 x4 x5 (ix2 r k)
      = (val_main_v58 (F := Ideal) x0 x1 x2 x3 x4 (ix2 r k) + x5 (ix1 k))
        - rowMax (fun k => val_main_v58 (F := Ideal) x0 x1 x2 x3 x4 (ix2 r k) + x5 (ix1 k)) := by
  rw [val_main_call1_v5_apply, val_main_call1_v4_apply, val_main_call1_v3_apply, scores_apply]
  have e : idx_main_call1_v3 (idx_main_call1_v4 (ix2 r k)) = ix1 r := funext fun a => Fin.ext (by match a with | ⟨0, _⟩ => rfl)
  rw [e, rowmax_apply]
  rfl

/-- Bias, then the logarithm of the softmax along each row. -/
theorem v62_eq : val_main_v62 (F := Ideal) x0 x1 x2 x3 x4 x5
    = biasLogSoftmax 50000 (val_main_v58 (F := Ideal) x0 x1 x2 x3 x4) (asRow 40 x5) := by
  funext i
  obtain ⟨r, q, rfl⟩ : ∃ (r : Fin 50000) (q : Fin 40), i = ix2 r q := ⟨i 0, i 1, eq_ix2 i⟩
  rw [val_main_v62_apply, val_main_call1_v10_apply, val_main_call1_v9_apply, val_main_call1_v8_apply]
  have e : idx_main_call1_v8 (idx_main_call1_v10 (ix2 r q)) = ix1 r := funext fun a => Fin.ext (by match a with | ⟨0, _⟩ => rfl)
  rw [e, val_main_call1_v7_apply, shifted_apply]
  have hs : ∀ k : Fin 40, val_main_call1_v6 (F := Ideal) x0 x1 x2 x3 x4 x5 (idx_main_call1_v7 (ix1 r) k)
      = Ideal.exp ((val_main_v58 (F := Ideal) x0 x1 x2 x3 x4 (ix2 r k) + x5 (ix1 k))
          - rowMax (fun k => val_main_v58 (F := Ideal) x0 x1 x2 x3 x4 (ix2 r k) + x5 (ix1 k))) := by
    intro k
    have ek : idx_main_call1_v7 (ix1 r) k = ix2 r k := funext fun a => Fin.ext (by match a with | ⟨0, _⟩ => rfl | ⟨1, _⟩ => rfl)
    rw [ek, val_main_call1_v6_apply, shifted_apply]
    exact Ideal.hostUnary_exp_def _
  simp only [hs, val_main_call1_cst_1_apply, Ideal.ofBits_def, Ideal.ofBits_zero_f32, zero_add, Ideal.hostUnary_log_def, Ideal.subf_def]
  rw [biasLogSoftmax_apply]
  unfold lsmRow
  simp only [asRow_apply]

end Steps

end Cert.ReferenceIdeal.RefSpec

end
-- ==== Proof.KValue.lean ====
/-
  The kernel program's result as a function of its six inputs.

  Its @main is three stretches of host operations around four launches. The contents of the buffers at each
  boundary are a fold through @main (the generated `W1` … `W7`). Read through that fold:

    * the first stretch computes, from the edge list alone, the padded source and destination indices and the
      edge weights; no later stretch or launch writes them, so each later boundary still holds them;
    * each launch leaves in its output array the whole-array function of the arrays it found (the four `final`
      theorems);
    * the second and the fourth stretch each compute the normalised neighbourhood sum of the launch output before
      them (the same operations the reference performs: `RefSpec.agg128`, `RefSpec.agg40`), and hand the next
      launch the bias as a one-row array.

  Composed, the result is the same term the reference's stages unfold to.
-/
import proofs.«145185_j60722247631127_1_alg».proof.Proof.Gen.KernelIdeal.Frame
import proofs.«145185_j60722247631127_1_alg».proof.Proof.Region0
import proofs.«145185_j60722247631127_1_alg».proof.Proof.Region1
import proofs.«145185_j60722247631127_1_alg».proof.Proof.Region2
import proofs.«145185_j60722247631127_1_alg».proof.Proof.Region3
import proofs.«145185_j60722247631127_1_alg».proof.Proof.RefSpec
import Idealize.ShloMosaic.Lib.StableHlo.Run
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

/-! ## The host stretches, at any float instance -/

section Host
variable {F : FTy → Type} [FloatOps F]
variable (m : (ℓ : Loc nD τ sig) → Buf (Elt F) ℓ) (ρ : Dev nD → PrngReg)

/-- After the first stretch: the padded source indices, a function of the edge list. -/
theorem W1_src (c : Dev nD) :
    W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  unfold hostOps0
  after_results_simp
  rfl

/-- After the first stretch: the padded destination indices. -/
theorem W1_dst (c : Dev nD) :
    W1 m ρ c (Proc.devRef .tc main_v6) = Cert.ReferenceIdeal.ReadP.val_main_v6 (F := F) (m ((c : Thread nD τ).loc main_arg1)) := by
  show StableHlo.after hostOps0 (W0 m ρ c) (Proc.devRef .tc main_v6) = _
  unfold hostOps0
  after_results_simp
  rfl

/-- After the first stretch: the edge weights (the product of the two ends' inverse square-root degrees). -/
theorem W1_norm (c : Dev nD) :
    W1 m ρ c (Proc.devRef .tc main_v26) = Cert.ReferenceIdeal.ReadP.val_main_v26 (F := F) (m ((c : Thread nD τ).loc main_arg1)) := by
  show StableHlo.after hostOps0 (W0 m ρ c) (Proc.devRef .tc main_v26) = _
  unfold hostOps0
  after_results_simp
  rfl

/-- The first stretch writes no argument. -/
theorem W1_arg (c : Dev nD) (b : Ref sig .tc) (hb : b = main_arg0 ∨ b = main_arg2 ∨ b = main_arg3 ∨ b = main_arg4 ∨ b = main_arg5) :
    W1 m ρ c (Proc.devRef .tc b) = m ((c : Thread nD τ).loc b) := by
  show StableHlo.after hostOps0 (W0 m ρ c) (Proc.devRef .tc b) = _
  unfold hostOps0
  rcases hb with rfl | rfl | rfl | rfl | rfl <;> (after_results_simp <;> rfl)

/-- The first launch writes only its output array. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-- The second stretch leaves what it does not write. -/
theorem W3_keep (c : Dev nD) (b : Ref sig .tc) (hb : b = main_v3 ∨ b = main_v6 ∨ b = main_v26 ∨ b = main_arg4 ∨ b = main_arg5) :
    W3 m ρ c (Proc.devRef .tc b) = W2 m ρ c (Proc.devRef .tc b) := by
  show StableHlo.after hostOps1 (W2 m ρ c) (Proc.devRef .tc b) = _
  unfold hostOps1
  rcases hb with rfl | rfl | rfl | rfl | rfl <;> after_results_simp

/-- The second stretch: the neighbourhood sum of the first launch's output. -/
theorem W3_agg (c : Dev nD) :
    W3 m ρ c (Proc.devRef .tc main_v40)
      = Cert.ReferenceIdeal.RefSpec.agg128 (F := F) (m ((c : Thread nD τ).loc main_arg1)) (W2 m ρ c (Proc.devRef .tc main_v27)) := by
  show StableHlo.after hostOps1 (W2 m ρ c) (Proc.devRef .tc main_v40) = _
  unfold hostOps1
  after_results_simp
  rw [W2_keep m ρ c main_v3 (by decide), W2_keep m ρ c main_v6 (by decide), W2_keep m ρ c main_v26 (by decide),
    W1_src, W1_dst, W1_norm]
  rfl

/-- The second stretch: the first bias as a one-row array. -/
theorem W3_bias (c : Dev nD) :
    W3 m ρ c (Proc.devRef .tc main_v41) = shapeCast S1x128 (m ((c : Thread nD τ).loc main_arg3)) shapeCasts_S128_S1x128 := by
  show StableHlo.after hostOps1 (W2 m ρ c) (Proc.devRef .tc main_v41) = _
  unfold hostOps1
  after_results_simp
  rw [W2_keep m ρ c main_arg3 (by decide), W1_arg m ρ c main_arg3 (by simp)]
  rfl

/-- What the third launch finds of the earlier boundaries: the index arrays, the weights, the later arguments. -/
theorem W5_keep (c : Dev nD) (b : Ref sig .tc) (hb : b = main_v3 ∨ b = main_v6 ∨ b = main_v26 ∨ b = main_arg4 ∨ b = main_arg5)
    (h0 : ∀ w, Pipeline.arrRef spec0 w ≠ b) (h1 : ∀ w, Pipeline.arrRef spec1 w ≠ b) (h2 : ∀ w, Pipeline.arrRef spec2 w ≠ b) :
    W5 m ρ c (Proc.devRef .tc b) = W1 m ρ c (Proc.devRef .tc b) :=
  (W5_of_ne m ρ c b h2).trans ((W4_of_ne m ρ c b h1).trans ((W3_keep m ρ c b hb).trans (W2_of_ne m ρ c b h0)))

/-- The fourth stretch: the neighbourhood sum of the third launch's output. -/
theorem W6_agg (c : Dev nD) :
    W6 m ρ c (Proc.devRef .tc main_v56)
      = Cert.ReferenceIdeal.RefSpec.agg40 (F := F) (m ((c : Thread nD τ).loc main_arg1)) (W5 m ρ c (Proc.devRef .tc main_v43)) := by
  show StableHlo.after hostOps3 (W5 m ρ c) (Proc.devRef .tc main_v56) = _
  unfold hostOps3
  after_results_simp
  rw [W5_keep m ρ c main_v3 (by simp) (by decide) (by decide) (by decide),
    W5_keep m ρ c main_v6 (by simp) (by decide) (by decide) (by decide),
    W5_keep m ρ c main_v26 (by simp) (by decide) (by decide) (by decide),
    W1_src, W1_dst, W1_norm]
  rfl

/-- The fourth stretch: the second bias as a one-row array. -/
theorem W6_bias (c : Dev nD) :
    W6 m ρ c (Proc.devRef .tc main_v57) = shapeCast S1x40 (m ((c : Thread nD τ).loc main_arg5)) shapeCasts_S40_S1x40 := by
  show StableHlo.after hostOps3 (W5 m ρ c) (Proc.devRef .tc main_v57) = _
  unfold hostOps3
  after_results_simp
  rw [W5_keep m ρ c main_arg5 (by simp) (by decide) (by decide) (by decide), W1_arg m ρ c main_arg5 (by simp)]
  rfl

end Host

/-! ## The result, at the extended reals -/

section Result
variable (m : (ℓ : Loc nD τ sig) → Buf (Elt Ideal) ℓ) (ρ : Dev nD → PrngReg)

open Cert.GcnSpec Idealize.ShloMosaic.ValueIdx

/-- A vector recast as a one-row array is that row. -/
theorem cast_asRow (n : Nat) (v : (⟨1, ![n]⟩ : Shape).Idx → EReal) (h : (⟨1, ![n]⟩ : Shape).ShapeCasts ⟨2, ![1, n]⟩) :
    shapeCast ⟨2, ![1, n]⟩ v h = asRow n v := by
  funext j
  obtain ⟨z, k, rfl⟩ : ∃ (z : Fin 1) (k : Fin n), j = ix2 z k := ⟨j 0, j 1, eq_ix2 j⟩
  have hz0 : z = 0 := Subsingleton.elim _ _
  subst hz0
  exact shapeCast_apply v h (ix2 (0 : Fin 1) k) (ix1 k) (by
    rw [Shape.rowMajor_val_one, Shape.rowMajor_val_two]; show k.val = 0 * n + k.val; omega)

/-- THE RESULT: the array the last launch leaves is the reference's last stage of the six inputs. -/
theorem result_eq (c : Dev nD) :
    W7 m ρ c (Proc.devRef .tc main_v58)
      = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the reference's stages, as the specification's functions of the inputs
  rw [Cert.ReferenceIdeal.RefSpec.v62_eq, Cert.ReferenceIdeal.RefSpec.v58_eq, Cert.ReferenceIdeal.RefSpec.v45_eq, Cert.ReferenceIdeal.RefSpec.v44_eq, Cert.ReferenceIdeal.RefSpec.v40_eq, Cert.ReferenceIdeal.RefSpec.v27_eq]
  -- the kernel's boundaries, launch by launch from the last
  have h3 : W7 m ρ c (Proc.devRef .tc main_v58) = biasLogSoftmax 50000 (V6 m ρ c main_v56) (V6 m ρ c main_v57) :=
    (W7_arr m ρ c 2).trans (Region3.final (V6 m ρ) c)
  have h2 : W5 m ρ c (Proc.devRef .tc main_v43) = linear 50000 40 (V4 m ρ c main_v42) (V4 m ρ c main_arg4) :=
    (W5_arr m ρ c 2).trans (Region2.final (V4 m ρ) c)
  have h1 : W4 m ρ c (Proc.devRef .tc main_v42) = biasRelu 50000 (V3 m ρ c main_v40) (V3 m ρ c main_v41) :=
    (W4_arr m ρ c 2).trans (Region1.final (V3 m ρ) c)
  have h0 : W2 m ρ c (Proc.devRef .tc main_v27) = linear 50000 128 (V1 m ρ c main_arg0) (V1 m ρ c main_arg2) :=
    (W2_arr m ρ c 2).trans (Region0.final (V1 m ρ) c)
  have a0 : V1 m ρ c main_arg0 = m ((c : Thread nD τ).loc main_arg0) := W1_arg m ρ c main_arg0 (by simp)
  have a2 : V1 m ρ c main_arg2 = m ((c : Thread nD τ).loc main_arg2) := W1_arg m ρ c main_arg2 (by simp)
  have a4 : V4 m ρ c main_arg4 = m ((c : Thread nD τ).loc main_arg4) :=
    (W4_of_ne m ρ c main_arg4 (by decide)).trans ((W3_keep m ρ c main_arg4 (by simp)).trans
      ((W2_keep m ρ c main_arg4 (by decide)).trans (W1_arg m ρ c main_arg4 (by simp))))
  have e40 : V3 m ρ c main_v40 = Cert.ReferenceIdeal.RefSpec.agg128 (F := Ideal) (m ((c : Thread nD τ).loc main_arg1)) (W2 m ρ c (Proc.devRef .tc main_v27)) := W3_agg m ρ c
  have e41 : V3 m ρ c main_v41 = asRow 128 (m ((c : Thread nD τ).loc main_arg3)) := (W3_bias m ρ c).trans (cast_asRow 128 _ _)
  have e56 : V6 m ρ c main_v56 = Cert.ReferenceIdeal.RefSpec.agg40 (F := Ideal) (m ((c : Thread nD τ).loc main_arg1)) (W5 m ρ c (Proc.devRef .tc main_v43)) := W6_agg m ρ c
  have e57 : V6 m ρ c main_v57 = asRow 40 (m ((c : Thread nD τ).loc main_arg5)) := (W6_bias m ρ c).trans (cast_asRow 40 _ _)
  have e42 : V4 m ρ c main_v42 = W4 m ρ c (Proc.devRef .tc main_v42) := rfl
  rw [h3, e56, e57, h2, e42, h1, e40, e41, h0, a0, a2, a4]

end Result

end Cert.KernelIdeal.KValue

end
-- ==== Proof.RefFold.lean ====
/-
  The reference program's result, read back: the fold of its 91 host operations over the launch memory, at the
  result buffer, is the last of the reference's stages applied to the six inputs.

  The fold is evaluated operation by operation. Two of the reference's steps (the rectifier and the logarithm of
  the softmax) are called functions, whose operations pass their values through a typed view of a buffer and back;
  a value sent through the view and read back is the value (`tref_ofBuf_toBuf`), and the few views left, at the
  buffers a called function reads from or returns to the caller, are views at the buffer's own type. What remains
  is the composed term, which unfolds stage by stage to the same term.
-/
import proofs.«145185_j60722247631127_1_alg».proof.Proof.RefRead

noncomputable section

namespace Cert.ReferenceIdeal.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A value written through a typed view of a buffer and read back through it is the value. -/
theorem tref_ofBuf_toBuf {sig : RefSig} {Val : EltTy → Type} {T : BufTy} (x : TRef sig T) (v : T.Contents Val) :
    x.ofBuf (x.toBuf v) = v := by
  obtain ⟨r, rfl, _, _⟩ := x; rfl

set_option maxRecDepth 65536 in
set_option maxHeartbeats 36400000 in
/-- The result buffer after the reference's operations, from the launch memory, is the last stage of the inputs. -/
theorem fold_eq (m : (ℓ : Loc nD τ sig) → Buf (Elt F) ℓ) (c : Dev nD) :
    after (ops (F := F)) (launchContents m c) (Proc.devRef .tc main_v62)
      = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  simp only [tref_ofBuf_toBuf]
  simp only [TRef.ofBuf, TRef.toBuf, cast_eq]
  rfl

end Cert.ReferenceIdeal.RefFold

end
-- ==== Proof.lean ====
/-
  A two-layer graph convolution on 50000 nodes: the tiled kernel program against its plain reference, over the
  extended reals.

  Both programs compute, from the edge list, the same padded index arrays and edge weights on the host, and both
  perform each layer's normalised neighbourhood sum on the host with the same operations. They differ in where the
  four dense, row-wise steps run: the reference performs them as whole-array host operations; the kernel program
  as four launches over 25 tiles of 2000 rows (x·W₁; bias and rectifier; h·W₂; bias and log-softmax). At the
  extended reals a narrowing to bf16 is the identity and a product into a zero accumulator is the plain product, and
  each of the four steps is a function of ONE ROW of its operand, so a tile of whole rows computes exactly the rows
  of the whole-array function (`GcnSpec`). No law of arithmetic beyond that is used: the two results are the same
  term, and the finiteness of the inputs is never opened.

    * Proof/Spec.lean        the four steps as row functions
    * Proof/Region0 … 3      each launch leaves the whole-array function of the arrays it found
    * Proof/KRun.lean        the kernel program's run with its result buffer named (the generated launch, re-posted)
    * Proof/KValue.lean      the host stretches threaded through; the result as the reference's last stage
    * Proof/RefRun, RefRead  the reference's run and its stages (generated; patched copies)
    * Proof/RefFold.lean     the reference's fold of operations evaluated to its last stage
    * Proof/RefSpec.lean     the reference's stages are the specification's functions
-/
import proofs.«145185_j60722247631127_1_alg».proof.Defs
import proofs.«145185_j60722247631127_1_alg».proof.Proof.Gen.Kernel
import proofs.«145185_j60722247631127_1_alg».proof.Proof.Gen.Kernel.Frame
import proofs.«145185_j60722247631127_1_alg».proof.Proof.Gen.KernelIdeal
import proofs.«145185_j60722247631127_1_alg».proof.Proof.Gen.KernelIdeal.Frame
import proofs.«145185_j60722247631127_1_alg».proof.Proof.Gen.ReferenceIdeal
import proofs.«145185_j60722247631127_1_alg».proof.Proof.Gen.Pre_finite_inputs
import proofs.«145185_j60722247631127_1_alg».proof.Proof.KRun
import proofs.«145185_j60722247631127_1_alg».proof.Proof.KValue
import proofs.«145185_j60722247631127_1_alg».proof.Proof.RefRun
import proofs.«145185_j60722247631127_1_alg».proof.Proof.RefFold
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- From memories agreeing on the six inputs both programs end with the reference's last stage of those inputs in
    their result buffers: the kernel program by its launches and host stretches read back (`KValue.result_eq`), the
    reference by its operations folded (`RefFold.fold_eq`). -/
theorem algebraic : Cert.algebraic_KernelIdeal_ReferenceIdeal := by
  intro m ρ m' ρ' _ hagree
  refine ⟨fun c => Cert.ReferenceIdeal.ReadP.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefFold.fold_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
